-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S4x2048x2 : Shape := ⟨3, ![4, 2048, 2]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel

variable [Facts]

def fn {F : FTy → Type} [FloatOps F] (main_arg0 : FVec F S4x2048x512 .f32) (main_arg1 : IVec S4x2048x2 32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  main_v3
-- ==== Kernel.lean ====
abbrev S4x2048x512 : Shape := ⟨3, ![4, 2048, 512]⟩
abbrev S4x2048x2 : Shape := ⟨3, ![4, 2048, 2]⟩
abbrev S4x2048x16x512 : Shape := ⟨4, ![4, 2048, 16, 512]⟩
abbrev S1x256x512 : Shape := ⟨3, ![1, 256, 512]⟩
abbrev S1x256x2 : Shape := ⟨3, ![1, 256, 2]⟩
abbrev S1x256x16x512 : Shape := ⟨4, ![1, 256, 16, 512]⟩
abbrev S1x256x16 : Shape := ⟨3, ![1, 256, 16]⟩
abbrev S1x256x1 : Shape := ⟨3, ![1, 256, 1]⟩
abbrev S1x256x1x512 : Shape := ⟨4, ![1, 256, 1, 512]⟩
abbrev S1x256x16x1 : Shape := ⟨4, ![1, 256, 16, 1]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x512, .f32⟩
  | .hbm, ⟨1, _⟩ => ⟨S4x2048x2, .i32⟩
  | .hbm, ⟨2, _⟩ => ⟨S4x2048x16x512, .f32⟩
  | .local _ .vmem, ⟨0, _⟩ => ⟨S1x256x512, .f32⟩
  | .local _ .vmem, ⟨1, _⟩ => ⟨S1x256x512, .f32⟩
  | .local _ .vmem, ⟨2, _⟩ => ⟨S1x256x2, .i32⟩
  | .local _ .vmem, ⟨3, _⟩ => ⟨S1x256x2, .i32⟩
  | .local _ .vmem, ⟨4, _⟩ => ⟨S1x256x16x512, .f32⟩
  | .local _ .vmem, ⟨5, _⟩ => ⟨S1x256x16x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x256x512_S1x256x512_0_0_0 : ∀ a, (![0, 0, 0] : Fin 3 → Nat) a + S1x256x512.size a ≤ S1x256x512.size a
  h_S1x256x512 : 0 < S1x256x512.numel
  inb_S1x256x2_S1x256x2_0_0_0 : ∀ a, (![0, 0, 0] : Fin 3 → Nat) a + S1x256x2.size a ≤ S1x256x2.size a
  h_S1x256x2 : 0 < S1x256x2.numel
  iota_S1x256x16_d2_w32 : S1x256x16.Iotas .tc 32 [2]
  slices_S1x256x2_o0_0_0_S1x256x1 : S1x256x2.Slices ![0, 0, 0] S1x256x1
  slices_S1x256x2_o0_0_1_S1x256x1 : S1x256x2.Slices ![0, 0, 1] S1x256x1
  broadcasts_S1x256x1_S1x256x16 : S1x256x1.Broadcasts S1x256x16
  natLt_1_32 : 1 < 32
  shapeCasts_S1x256x512_S1x256x1x512 : S1x256x512.ShapeCasts S1x256x1x512
  shapeCasts_S1x256x16_S1x256x16x1 : S1x256x16.ShapeCasts S1x256x16x1
  broadcasts_S1x256x1x512_S1x256x16x512 : S1x256x1x512.Broadcasts S1x256x16x512
  broadcasts_S1x256x16x1_S1x256x16x512 : S1x256x16x1.Broadcasts S1x256x16x512
  inb_S1x256x16x512_S1x256x16x512_0_0_0_0 : ∀ a, (![0, 0, 0, 0] : Fin 4 → Nat) a + S1x256x16x512.size a ≤ S1x256x16x512.size a
  h_S1x256x16x512 : 0 < S1x256x16x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S4x2048x512.size a
  hwx0_0 : ∀ i : grid0.Coords, EltTy.bits .f32 = 32 ∨ (Rect.block (s := S4x2048x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2.size a ≤ S4x2048x2.size a
  hwx0_1 : ∀ i : grid0.Coords, EltTy.bits .i32 = 32 ∨ (Rect.block (s := S4x2048x2) S1x256x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x16x512.size a ≤ S4x2048x16x512.size a
  hwx0_2 : ∀ i : grid0.Coords, EltTy.bits .f32 = 32 ∨ (Rect.block (s := S4x2048x16x512) S1x256x16x512.size (cc0_transform_2 i) (hinb0_2 i)).WholeWords (EltTy.packing .f32)

variable [Facts₀]

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x16x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x512 : Shape := ⟨3, ![4, 2048, 512]⟩
abbrev S4x2048x2 : Shape := ⟨3, ![4, 2048, 2]⟩
abbrev S4x2048x2x1 : Shape := ⟨4, ![4, 2048, 2, 1]⟩
abbrev S1x1x1x16 : Shape := ⟨4, ![1, 1, 1, 16]⟩
abbrev S4x2048x2x16 : Shape := ⟨4, ![4, 2048, 2, 16]⟩
abbrev S_ : Shape := ⟨0, ![]⟩
abbrev S4x2048x16 : Shape := ⟨3, ![4, 2048, 16]⟩
abbrev S4x2048x1x512 : Shape := ⟨4, ![4, 2048, 1, 512]⟩
abbrev S4x2048x16x1 : Shape := ⟨4, ![4, 2048, 16, 1]⟩
abbrev S4x2048x16x512 : Shape := ⟨4, ![4, 2048, 16, 512]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x2, .i32⟩
  | .hbm, ⟨2, _⟩ => ⟨S4x2048x2x1, .i32⟩
  | .hbm, ⟨3, _⟩ => ⟨S1x1x1x16, .i32⟩
  | .hbm, ⟨4, _⟩ => ⟨S4x2048x2x16, .i32⟩
  | .hbm, ⟨5, _⟩ => ⟨S4x2048x2x16, .i32⟩
  | .hbm, ⟨6, _⟩ => ⟨S4x2048x2x16, .i1⟩
  | .hbm, ⟨7, _⟩ => ⟨S4x2048x2x16, .f32⟩
  | .hbm, ⟨8, _⟩ => ⟨S_, .f32⟩
  | .hbm, ⟨9, _⟩ => ⟨S4x2048x16, .f32⟩
  | .hbm, ⟨10, _⟩ => ⟨S4x2048x1x512, .f32⟩
  | .hbm, ⟨11, _⟩ => ⟨S4x2048x16x1, .f32⟩
  | .hbm, ⟨12, _⟩ => ⟨S4x2048x16x512, .f32⟩
  | .hbm, ⟨13, _⟩ => ⟨S4x2048x16x512, .f32⟩
  | .hbm, ⟨14, _⟩ => ⟨S4x2048x16x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩

abbrev nD : Nat := 1
abbrev τ : Topo := Topo.v7x

variable {F : FTy → Type} [FloatOps F]

class Facts₀ : Prop where
  bcast_S4x2048x2_S4x2048x2x1_0_1_2 : S4x2048x2.BroadcastsInDim S4x2048x2x1 (![0, 1, 2] : Fin 3 → Fin S4x2048x2x1.rank)
  bcast_S4x2048x2x1_S4x2048x2x16_0_1_2_3 : S4x2048x2x1.BroadcastsInDim S4x2048x2x16 (![0, 1, 2, 3] : Fin 4 → Fin S4x2048x2x16.rank)
  bcast_S1x1x1x16_S4x2048x2x16_0_1_2_3 : S1x1x1x16.BroadcastsInDim S4x2048x2x16 (![0, 1, 2, 3] : Fin 4 → Fin S4x2048x2x16.rank)
  reducesTo_S4x2048x2x16_S4x2048x16_d2 : S4x2048x2x16.ReducesTo [2] S4x2048x16
  h_S_ : 0 < S_.numel
  bcast_S4x2048x512_S4x2048x1x512_0_1_3 : S4x2048x512.BroadcastsInDim S4x2048x1x512 (![0, 1, 3] : Fin 3 → Fin S4x2048x1x512.rank)
  bcast_S4x2048x16_S4x2048x16x1_0_1_2 : S4x2048x16.BroadcastsInDim S4x2048x16x1 (![0, 1, 2] : Fin 3 → Fin S4x2048x16x1.rank)
  bcast_S4x2048x1x512_S4x2048x16x512_0_1_2_3 : S4x2048x1x512.BroadcastsInDim S4x2048x16x512 (![0, 1, 2, 3] : Fin 4 → Fin S4x2048x16x512.rank)
  bcast_S4x2048x16x1_S4x2048x16x512_0_1_2_3 : S4x2048x16x1.BroadcastsInDim S4x2048x16x512 (![0, 1, 2, 3] : Fin 4 → Fin S4x2048x16x512.rank)

variable [Facts₀]

class Facts : Prop extends Facts₀ where

variable [Facts]
-- ==== Proof.Mask.lean ====
/-
  The mathematics both programs compute, stated once with no program in sight.

  A token (b, s) carries a feature row x[b, s, ·] of 512 numbers and two partition labels idx[b, s, 0], idx[b, s, 1]
  (32-bit words).  The result replicates the row over 16 partitions and keeps it only in the partitions the token
  is routed to:

      out[b, s, p, d] = x[b, s, d] · w(b, s, p),    w = 1 if the word p equals either label, else 0.

  The weight is reached two ways.  One side ORs the two one-bit comparisons, widens the bit to a word and
  converts the word to a number; the other converts each comparison bit to a number and takes the maximum of the
  two, starting the maximum from −∞.  On bits both are "1 iff at least one comparison holds": the scalar lemmas
  below.  A label outside 0..15 matches no partition on either side, so nothing is asked of the labels.
-/
import Idealize.ShloMosaic.PureOps.Ideal
import Idealize.ShloMosaic.PureOps.Ideal.Laws
import Idealize.ShloMosaic.Lib.ValueIdx

noncomputable section

namespace Cert.ScatterMask

open Idealize.ShloMosaic Idealize.ShloMosaic.ValueIdx

/-! ## The arrays' shapes -/

abbrev Tokens : Shape := ⟨3, ![4, 2048, 512]⟩
abbrev Labels : Shape := ⟨3, ![4, 2048, 2]⟩
abbrev Routed : Shape := ⟨4, ![4, 2048, 16, 512]⟩

/-- The feature entry (b, s, d) an output entry (b, s, p, d) is a multiple of. -/
abbrev feat (i : Routed.Idx) : Tokens.Idx := fun a => match a with
  | ⟨0, _⟩ => ⟨(i 0).val, (i 0).isLt⟩
  | ⟨1, _⟩ => ⟨(i 1).val, (i 1).isLt⟩
  | ⟨2, _⟩ => ⟨(i 3).val, (i 3).isLt⟩

/-- The k-th label (b, s, k) of the token an output entry (b, s, p, d) belongs to. -/
abbrev label (i : Routed.Idx) (k : Fin 2) : Labels.Idx := fun a => match a with
  | ⟨0, _⟩ => ⟨(i 0).val, (i 0).isLt⟩
  | ⟨1, _⟩ => ⟨(i 1).val, (i 1).isLt⟩
  | ⟨2, _⟩ => ⟨k.val, k.isLt⟩

/-! ## The weight and the result -/

/-- 1 when partition `p`, as a 32-bit word, is one of the two labels `a`, `b`; 0 otherwise. -/
def weight (a b : BitVec 32) (p : Nat) : EReal :=
  if BitVec.ofNat 32 p = a ∨ BitVec.ofNat 32 p = b then 1 else 0

/-- The routed copy of the features: entry (b, s, p, d) is x[b, s, d] times the weight of partition p for token (b, s). -/
def routed (x : Tokens.Idx → EReal) (idx : Labels.Idx → BitVec 32) : Routed.Idx → EReal := fun i =>
  x (feat i) * weight (idx (label i 0)) (idx (label i 1)) (i 2).val

/-! ## Bits -/

theorem bit_cases (c : BitVec 1) : c = 0#1 ∨ c = 1#1 := by revert c; decide

/-- An equality test answers the bit 1 exactly when its operands are equal. -/
theorem cmpi_eq_one_iff (x y : BitVec 32) : IntOp.cmpi .eq x y = 1#1 ↔ x = y := by
  have hbit : ∀ b : Bool, BitVec.ofBool b = 1#1 ↔ b = true := by decide
  show BitVec.ofBool (x == y) = 1#1 ↔ x = y
  rw [hbit]
  exact beq_iff_eq

/-- OR the two bits, widen to a word, read the word as a signed number: 1 iff a bit is set. -/
theorem number_of_or (c d : BitVec 1) :
    (FloatOps.sitofp (F := Ideal) .f32 ((IntOp.ori c d).setWidth 32) : EReal) = if c = 1#1 ∨ d = 1#1 then 1 else 0 := by
  show ((((IntOp.ori c d).setWidth 32).toInt : ℝ) : EReal) = _
  rcases bit_cases c with rfl | rfl <;> rcases bit_cases d with rfl | rfl
  · rw [show ((IntOp.ori 0#1 0#1).setWidth 32).toInt = 0 by decide]; simp
  · rw [show ((IntOp.ori 0#1 1#1).setWidth 32).toInt = 1 by decide]; simp
  · rw [show ((IntOp.ori 1#1 0#1).setWidth 32).toInt = 1 by decide]; simp
  · rw [show ((IntOp.ori 1#1 1#1).setWidth 32).toInt = 1 by decide]; simp

/-- A maximum over the two-element index set, written out. -/
theorem fold_two {α : Type} (op : α → α → α) [Std.Commutative op] [Std.Associative op] (b : α) (f : Fin 2 → α) :
    (Finset.univ : Finset (Fin 2)).fold op b f = op (f 0) (op (f 1) b) := by
  rw [show (Finset.univ : Finset (Fin 2)) = insert 0 {1} by decide, Finset.fold_insert (by decide), Finset.fold_singleton]

/-- −∞ is neutral for the maximum of extended reals. -/
theorem max_neg_inf (y : Ideal .f32) : max y (Ideal.ofBits .f32 0xFF800000#32) = y := by
  rw [max_comm]; simp [Ideal.ofBits, Ideal.ieee]

/-- Read each bit as an unsigned number and take the maximum of the two from −∞: 1 iff a bit is set. -/
theorem max_of_numbers (c d : BitVec 1) :
    max (FloatOps.uitofp (F := Ideal) .f32 c : EReal) (max (FloatOps.uitofp (F := Ideal) .f32 d) (Ideal.ofBits .f32 0xFF800000#32))
      = if c = 1#1 ∨ d = 1#1 then 1 else 0 := by
  rw [max_neg_inf]
  show max (((c.toNat : ℝ)) : EReal) (((d.toNat : ℝ)) : EReal) = _
  rcases bit_cases c with rfl | rfl <;> rcases bit_cases d with rfl | rfl <;> simp

/-- The first road to the weight: compare the partition word with each label, OR, widen, convert. -/
theorem weight_by_or (a b : BitVec 32) (p : Nat) :
    (FloatOps.sitofp (F := Ideal) .f32
      ((IntOp.ori (IntOp.cmpi .eq (BitVec.ofNat 32 p) a) (IntOp.cmpi .eq (BitVec.ofNat 32 p) b)).setWidth 32) : EReal)
      = weight a b p := by
  rw [number_of_or]
  unfold weight
  exact if_congr (or_congr (cmpi_eq_one_iff _ _) (cmpi_eq_one_iff _ _)) rfl rfl

/-- The second road: compare each label with the partition word, convert each bit, take the maximum from −∞. -/
theorem weight_by_max (a b : BitVec 32) (p : Nat) :
    max (FloatOps.uitofp (F := Ideal) .f32 (IntOp.cmpi .eq a (BitVec.ofNat 32 p)) : EReal)
        (max (FloatOps.uitofp (F := Ideal) .f32 (IntOp.cmpi .eq b (BitVec.ofNat 32 p))) (Ideal.ofBits .f32 0xFF800000#32))
      = weight a b p := by
  rw [max_of_numbers]
  unfold weight
  exact if_congr (or_congr ((cmpi_eq_one_iff _ _).trans eq_comm) ((cmpi_eq_one_iff _ _).trans eq_comm)) rfl rfl

end Cert.ScatterMask

end
-- ==== Proof.TileRead.lean ====
/-
  One tile of the computation, 256 tokens of one batch row, read entry by entry.

  Inside a tile the features are a [1, 256, 512] block, the labels a [1, 256, 2] block and the result a
  [1, 256, 16, 512] block.  The body never mixes tokens: it only re-lays values.  A feature block gains a unit
  partition axis and is repeated 16 times along it; a [1, 256, 16] block of weights gains a unit feature axis
  and is repeated 512 times along it; a column of labels is cut out of the label block and repeated 16 times
  along the partition axis.  Each lemma says which single entry of the operand an entry of the re-laid block is.
-/
import Idealize.ShloMosaic.Lib.Pipeline.Value
import Idealize.ShloMosaic.Lib.ValueIdx

noncomputable section

namespace Cert.ScatterMask

open Idealize.ShloMosaic Idealize.ShloMosaic.ValueIdx

abbrev TokTile : Shape := ⟨3, ![1, 256, 512]⟩
abbrev LabTile : Shape := ⟨3, ![1, 256, 2]⟩
abbrev OutTile : Shape := ⟨4, ![1, 256, 16, 512]⟩
abbrev WeightTile : Shape := ⟨3, ![1, 256, 16]⟩

/-- Entry (0, s, p, d) of a result tile is a multiple of feature entry (0, s, d) of the tile. -/
abbrev tileFeat (j : OutTile.Idx) : TokTile.Idx := fun a => match a with
  | ⟨0, _⟩ => ⟨(j 0).val, (j 0).isLt⟩
  | ⟨1, _⟩ => ⟨(j 1).val, (j 1).isLt⟩
  | ⟨2, _⟩ => ⟨(j 3).val, (j 3).isLt⟩

/-- Entry (0, s, p, d) of a result tile carries the weight at (0, s, p). -/
abbrev tilePart (j : OutTile.Idx) : WeightTile.Idx := fun a => match a with
  | ⟨0, _⟩ => ⟨(j 0).val, (j 0).isLt⟩
  | ⟨1, _⟩ => ⟨(j 1).val, (j 1).isLt⟩
  | ⟨2, _⟩ => ⟨(j 2).val, (j 2).isLt⟩

/-- The label (0, s, o) a weight entry (0, s, p) is computed from, for column `o` of the label tile. -/
abbrev tileLabel (q : WeightTile.Idx) (o : Nat) (ho : o < 2) : LabTile.Idx := fun a => match a with
  | ⟨0, _⟩ => ⟨(q 0).val, (q 0).isLt⟩
  | ⟨1, _⟩ => ⟨(q 1).val, (q 1).isLt⟩
  | ⟨2, _⟩ => ⟨o, ho⟩

variable {α : Type}

/-- The features given a unit partition axis and repeated along it: entry (0, s, p, d) is feature (0, s, d). -/
theorem features_spread (v : TokTile.Idx → α) (h1 : TokTile.ShapeCasts ⟨4, ![1, 256, 1, 512]⟩)
    (h2 : (⟨4, ![1, 256, 1, 512]⟩ : Shape).Broadcasts OutTile) (j : OutTile.Idx) :
    broadcastTo OutTile (shapeCast ⟨4, ![1, 256, 1, 512]⟩ v h1) h2 j = v (tileFeat j) := by
  have h0 : (j 0).val < 1 := (j 0).isLt
  refine (broadcastTo_apply _ h2 j
    (fun a => match a with
      | ⟨0, _⟩ => ⟨(j 0).val, (j 0).isLt⟩
      | ⟨1, _⟩ => ⟨(j 1).val, (j 1).isLt⟩
      | ⟨2, _⟩ => ⟨0, Nat.one_pos⟩
      | ⟨3, _⟩ => ⟨(j 3).val, (j 3).isLt⟩)
    (fun a => match a with
      | ⟨0, _⟩ => by show (j 0).val = if (1 : Nat) = 1 then 0 else (j 0).val; rw [if_pos rfl]; omega
      | ⟨1, _⟩ => by show (j 1).val = if (256 : Nat) = 1 then 0 else (j 1).val; rw [if_neg (by decide)]
      | ⟨2, _⟩ => by show 0 = if (1 : Nat) = 1 then 0 else (j 2).val; rw [if_pos rfl]
      | ⟨3, _⟩ => by show (j 3).val = if (512 : Nat) = 1 then 0 else (j 3).val; rw [if_neg (by decide)])).trans ?_
  exact shapeCast_apply v h1 _ (tileFeat j)
    (by rw [Shape.rowMajor_val_three, Shape.rowMajor_val_four]
        show ((j 0).val * 256 + (j 1).val) * 512 + (j 3).val = ((((j 0).val * 256 + (j 1).val) * 1 + 0) * 512 + (j 3).val)
        omega)

/-- The weights given a unit feature axis and repeated along it: entry (0, s, p, d) is weight (0, s, p). -/
theorem weights_spread (w : WeightTile.Idx → α) (h1 : WeightTile.ShapeCasts ⟨4, ![1, 256, 16, 1]⟩)
    (h2 : (⟨4, ![1, 256, 16, 1]⟩ : Shape).Broadcasts OutTile) (j : OutTile.Idx) :
    broadcastTo OutTile (shapeCast ⟨4, ![1, 256, 16, 1]⟩ w h1) h2 j = w (tilePart j) := by
  have h0 : (j 0).val < 1 := (j 0).isLt
  refine (broadcastTo_apply _ h2 j
    (fun a => match a with
      | ⟨0, _⟩ => ⟨(j 0).val, (j 0).isLt⟩
      | ⟨1, _⟩ => ⟨(j 1).val, (j 1).isLt⟩
      | ⟨2, _⟩ => ⟨(j 2).val, (j 2).isLt⟩
      | ⟨3, _⟩ => ⟨0, Nat.one_pos⟩)
    (fun a => match a with
      | ⟨0, _⟩ => by show (j 0).val = if (1 : Nat) = 1 then 0 else (j 0).val; rw [if_pos rfl]; omega
      | ⟨1, _⟩ => by show (j 1).val = if (256 : Nat) = 1 then 0 else (j 1).val; rw [if_neg (by decide)]
      | ⟨2, _⟩ => by show (j 2).val = if (16 : Nat) = 1 then 0 else (j 2).val; rw [if_neg (by decide)]
      | ⟨3, _⟩ => by show 0 = if (1 : Nat) = 1 then 0 else (j 3).val; rw [if_pos rfl])).trans ?_
  exact shapeCast_apply w h1 _ (tilePart j)
    (by rw [Shape.rowMajor_val_three, Shape.rowMajor_val_four]
        show ((j 0).val * 256 + (j 1).val) * 16 + (j 2).val = ((((j 0).val * 256 + (j 1).val) * 16 + (j 2).val) * 1 + 0)
        omega)

/-- Column `o` of the labels cut out and repeated along the partition axis: entry (0, s, p) is label (0, s, o). -/
theorem label_spread (l : LabTile.Idx → α) (o : Nat) (ho : o < 2) (hs : LabTile.Slices ![0, 0, o] ⟨3, ![1, 256, 1]⟩)
    (hb : (⟨3, ![1, 256, 1]⟩ : Shape).Broadcasts WeightTile) (q : WeightTile.Idx) :
    broadcastTo WeightTile (extractStridedSlice ⟨3, ![1, 256, 1]⟩ ![0, 0, o] l hs) hb q = l (tileLabel q o ho) := by
  have h0 : (q 0).val < 1 := (q 0).isLt
  refine (broadcastTo_apply _ hb q
    (fun a => match a with
      | ⟨0, _⟩ => ⟨(q 0).val, (q 0).isLt⟩
      | ⟨1, _⟩ => ⟨(q 1).val, (q 1).isLt⟩
      | ⟨2, _⟩ => ⟨0, Nat.one_pos⟩)
    (fun a => match a with
      | ⟨0, _⟩ => by show (q 0).val = if (1 : Nat) = 1 then 0 else (q 0).val; rw [if_pos rfl]; omega
      | ⟨1, _⟩ => by show (q 1).val = if (256 : Nat) = 1 then 0 else (q 1).val; rw [if_neg (by decide)]
      | ⟨2, _⟩ => by show 0 = if (1 : Nat) = 1 then 0 else (q 2).val; rw [if_pos rfl])).trans ?_
  exact extractStridedSlice_apply ![0, 0, o] l hs _ (tileLabel q o ho)
    (fun a => match a with
      | ⟨0, _⟩ => by show (q 0).val = 0 + (q 0).val; omega
      | ⟨1, _⟩ => by show (q 1).val = 0 + (q 1).val; omega
      | ⟨2, _⟩ => by show o = o + 0; omega)

end Cert.ScatterMask

end
-- ==== Proof.TileWeight.lean ====
/-
  The weights of one tile.

  For the 256 tokens of a tile and the 16 partitions, the body lays the partition number p along the last axis
  (an iota), repeats each of the two label columns along that axis, compares, ORs the two comparison bits, widens
  the bit to a word and converts the word to a number.  Entry (0, s, p) of the outcome is the weight of partition
  p for the token in row s: the first road to the weight, after each re-laid operand is read at its entry.
-/
import proofs.«146527_j87909390614955_1_alg».proof.Proof.Mask
import proofs.«146527_j87909390614955_1_alg».proof.Proof.TileRead

noncomputable section

namespace Cert.ScatterMask

open Idealize.ShloMosaic Idealize.ShloMosaic.ValueIdx

/-- The tile of weights, read at (0, s, p): the weight of partition p given the two labels of row s. -/
theorem tile_weight (l : IVec LabTile 32) (hi : WeightTile.Iotas .tc 32 [2])
    (hs0 : LabTile.Slices ![0, 0, 0] ⟨3, ![1, 256, 1]⟩) (hs1 : LabTile.Slices ![0, 0, 1] ⟨3, ![1, 256, 1]⟩)
    (hb : (⟨3, ![1, 256, 1]⟩ : Shape).Broadcasts WeightTile) (hlt : 1 < 32) (q : WeightTile.Idx) :
    (sitofp (F := Ideal) .f32 (extui 32
        (ori (cmpi .eq (iota .tc WeightTile 32 [2] hi) (broadcastTo WeightTile (extractStridedSlice ⟨3, ![1, 256, 1]⟩ ![0, 0, 0] l hs0) hb))
             (cmpi .eq (iota .tc WeightTile 32 [2] hi) (broadcastTo WeightTile (extractStridedSlice ⟨3, ![1, 256, 1]⟩ ![0, 0, 1] l hs1) hb)))
        hlt) : FVec Ideal WeightTile .f32) q
      = weight (l (tileLabel q 0 (by decide))) (l (tileLabel q 1 (by decide))) (q 2).val := by
  show FloatOps.sitofp (F := Ideal) .f32
      ((IntOp.ori (IntOp.cmpi .eq (iota .tc WeightTile 32 [2] hi q) (broadcastTo WeightTile (extractStridedSlice ⟨3, ![1, 256, 1]⟩ ![0, 0, 0] l hs0) hb q))
                  (IntOp.cmpi .eq (iota .tc WeightTile 32 [2] hi q) (broadcastTo WeightTile (extractStridedSlice ⟨3, ![1, 256, 1]⟩ ![0, 0, 1] l hs1) hb q))).setWidth 32) = _
  rw [iota_single_apply, label_spread l 0 (by decide) hs0 hb q, label_spread l 1 (by decide) hs1 hb q]
  exact weight_by_or _ _ _

end Cert.ScatterMask

end
-- ==== Proof.KernelTile.lean ====
/-
  What the body stores for one tile, entry by entry.

  The body's one store writes the product of two re-laid blocks: the tile's features repeated over the 16
  partitions, and the tile's weights repeated over the 512 features.  Entry (0, s, p, d) of the stored block is
  therefore feature (0, s, d) times the weight of partition p for the token in row s, computed from that row's
  two labels.
-/
import proofs.«146527_j87909390614955_1_alg».proof.Proof.Gen.KernelIdeal.Skeleton
import proofs.«146527_j87909390614955_1_alg».proof.Proof.TileWeight

noncomputable section

namespace Cert.KernelIdeal.TileValue

open Cert.KernelIdeal Cert.KernelIdeal.Gen Cert.ScatterMask
open Idealize.ShloMosaic Idealize.ShloMosaic.ValueIdx

/-- The stored block at (0, s, p, d): the feature (0, s, d) times the weight of p for row s. -/
theorem stored_apply (v0 : Vec Ideal S1x256x512 .f32) (v1 : Vec Ideal S1x256x2 .i32) (j : S1x256x16x512.Idx) :
    k0_pay1 (F := Ideal) v0 v1 j
      = v0 (tileFeat j) * weight (v1 (tileLabel (tilePart j) 0 (by decide))) (v1 (tileLabel (tilePart j) 1 (by decide))) (j 2).val := by
  unfold k0_pay1
  show FloatOps.mulf (F := Ideal) (broadcastTo S1x256x16x512 (shapeCast S1x256x1x512 v0 _) _ j)
      (broadcastTo S1x256x16x512 (shapeCast S1x256x16x1 _ _) _ j) = _
  rw [features_spread, weights_spread, tile_weight]
  rfl

end Cert.KernelIdeal.TileValue

end
-- ==== Proof.KernelArray.lean ====
/-
  From tiles to the whole array.

  The grid has 4 × 8 points; point (b, u) works on batch row b and tokens 256·u … 256·u + 255.  Its feature
  tile, its label tile and its result tile all sit at block position (b, u) of their arrays, so an entry
  (0, s, p, d) of the result tile is entry (b, 256·u + s, p, d) of the result array, and the feature and the two
  labels it is computed from are the entries (b, 256·u + s, d) and (b, 256·u + s, k) of the argument arrays: the
  tile written back at a point is the tile, at that position, of the routed copy of the WHOLE arguments.  The
  32 tiles cover the result array (token 256·u + s of row b lies in tile (b, u)), so the array ends as the
  routed copy.
-/
import proofs.«146527_j87909390614955_1_alg».proof.Proof.Gen.KernelIdeal.Value
import proofs.«146527_j87909390614955_1_alg».proof.Proof.KernelTile

noncomputable section

namespace Cert.KernelIdeal.ArrayValue

open Cert.KernelIdeal Cert.KernelIdeal.Gen Cert.KernelIdeal.Value Cert.KernelIdeal.TileValue Cert.ScatterMask
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem origin3 : (![0, 0, 0] : Fin 3 → Nat) = fun _ => 0 := funext fun a => by fin_cases a <;> rfl
theorem origin4 : (![0, 0, 0, 0] : Fin 4 → Nat) = fun _ => 0 := funext fun a => by fin_cases a <;> rfl

/-- At every grid point the three tiles sit at the same (batch row, token tile) position, and at position 0 on the
    axes that are not tiled (decided over the 32 points). -/
theorem tiles_aligned : ∀ t : Fin cfg0.N,
    win0_0.index t (0 : Fin 3) = win0_2.index t (0 : Fin 4) ∧ win0_0.index t (1 : Fin 3) = win0_2.index t (1 : Fin 4)
    ∧ win0_0.index t (2 : Fin 3) = 0
    ∧ win0_1.index t (0 : Fin 3) = win0_2.index t (0 : Fin 4) ∧ win0_1.index t (1 : Fin 3) = win0_2.index t (1 : Fin 4)
    ∧ win0_1.index t (2 : Fin 3) = 0
    ∧ win0_2.index t (2 : Fin 4) = 0 ∧ win0_2.index t (3 : Fin 4) = 0 :=
  (by decide +kernel : ∀ t : Fin grid0.N, _)

/-- Every (batch row, token tile) position is some grid point's. -/
theorem every_tile_visited : ∀ (q0 : Fin 4) (q1 : Fin 8), ∃ t : Fin cfg0.N, win0_2.index t = ![q0.val, q1.val, 0, 0] :=
  (by decide +kernel : ∀ (q0 : Fin 4) (q1 : Fin 8), ∃ t : Fin grid0.N, win0_2.index t = ![q0.val, q1.val, 0, 0])

/-- WHAT A POINT WRITES BACK is its tile of the routed copy of the whole argument arrays. -/
theorem written_back (c : Dev nD) (t : Fin cfg0.N) :
    (dats m 0 c).flushed 2 t
      = ((cfg0.win 2).blk t).view.read (Elt Ideal) (routed (V m c main_arg0) (V m c main_arg1)) := by
  rw [Value.flushed2]
  unfold out0_2
  rw [View.canon_unit_zero origin4]
  simp only [View.ld_unit_zero (S := S1x256x512) origin3, View.ld_unit_zero (S := S1x256x2) origin3]
  obtain ⟨e0, e1, e2, e3, e4, e5, e6, e7⟩ := tiles_aligned t
  funext j
  show k0_pay1 (F := Ideal) (iblk m c 0 t) (iblk m c 1 t) j
    = routed (V m c main_arg0) (V m c main_arg1) (((cfg0.win 2).blk t).view.emb j)
  rw [stored_apply]
  unfold routed
  have hx : iblk m c 0 t (tileFeat j) = V m c main_arg0 (feat (((cfg0.win 2).blk t).view.emb j)) := by
    show V m c main_arg0 (((cfg0.win 0).blk t).view.emb (tileFeat j)) = _
    refine congrArg (V m c main_arg0) (funext fun a => Fin.ext ?_)
    match a with
    | ⟨0, _⟩ => show win0_0.index t (0 : Fin 3) * 1 + 1 * (j 0).val = win0_2.index t (0 : Fin 4) * 1 + 1 * (j 0).val; omega
    | ⟨1, _⟩ => show win0_0.index t (1 : Fin 3) * 256 + 1 * (j 1).val = win0_2.index t (1 : Fin 4) * 256 + 1 * (j 1).val; omega
    | ⟨2, _⟩ => show win0_0.index t (2 : Fin 3) * 512 + 1 * (j 3).val = win0_2.index t (3 : Fin 4) * 512 + 1 * (j 3).val; omega
  have hl : ∀ (o : Nat) (ho : o < 2), iblk m c 1 t (tileLabel (tilePart j) o ho)
      = V m c main_arg1 (label (((cfg0.win 2).blk t).view.emb j) ⟨o, ho⟩) := by
    intro o ho
    show V m c main_arg1 (((cfg0.win 1).blk t).view.emb (tileLabel (tilePart j) o ho)) = _
    refine congrArg (V m c main_arg1) (funext fun a => Fin.ext ?_)
    match a with
    | ⟨0, _⟩ => show win0_1.index t (0 : Fin 3) * 1 + 1 * (j 0).val = win0_2.index t (0 : Fin 4) * 1 + 1 * (j 0).val; omega
    | ⟨1, _⟩ => show win0_1.index t (1 : Fin 3) * 256 + 1 * (j 1).val = win0_2.index t (1 : Fin 4) * 256 + 1 * (j 1).val; omega
    | ⟨2, _⟩ => show win0_1.index t (2 : Fin 3) * 2 + 1 * o = o; omega
  have hp : (j 2).val = ((((cfg0.win 2).blk t).view.emb j) 2).val := by
    show (j 2).val = win0_2.index t (2 : Fin 4) * 16 + 1 * (j 2).val; omega
  rw [hx, hl 0 (by decide), hl 1 (by decide), hp]
  rfl

/-- An index of the result array is in point `t`'s tile iff each coordinate is in the tile's range on its axis. -/
theorem mem_tile (t : Fin cfg0.N) (i : S4x2048x16x512.Idx) :
    i ∈ ((cfg0.win 2).blk t).view.set ↔ ∀ a : Fin 4, win0_2.index t a * S1x256x16x512.size a ≤ (i a).val ∧ (i a).val < win0_2.index t a * S1x256x16x512.size a + S1x256x16x512.size a := by
  show i ∈ ((View.whole main_v0).slice (win0_2.rect t)).set ↔ _
  rw [View.set_slice_whole, Rect.mem_set_unit]
  exact Iff.rfl

/-- The tiles cover the result array: entry (b, n, p, d) lies in the tile at position (b, n / 256). -/
theorem tiles_cover (i : S4x2048x16x512.Idx) :
    ∃ t : Fin cfg0.N, (cfg0.win 2).flush t = true ∧ i ∈ ((cfg0.win 2).blk t).view.set := by
  have hi0 : (i 0).val < 4 := (i 0).isLt
  have hi1 : (i 1).val < 2048 := (i 1).isLt
  have hi2 : (i 2).val < 16 := (i 2).isLt
  have hi3 : (i 3).val < 512 := (i 3).isLt
  obtain ⟨t, ht⟩ := every_tile_visited ⟨(i 0).val, hi0⟩ ⟨(i 1).val / 256, by omega⟩
  have q0 : win0_2.index t (0 : Fin 4) = (i 0).val := congrFun ht 0
  have q1 : win0_2.index t (1 : Fin 4) = (i 1).val / 256 := congrFun ht 1
  have q2 : win0_2.index t (2 : Fin 4) = 0 := congrFun ht 2
  have q3 : win0_2.index t (3 : Fin 4) = 0 := congrFun ht 3
  refine ⟨t, flush0_2 t, ?_⟩
  rw [mem_tile]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 256 ≤ (i 1).val ∧ (i 1).val < win0_2.index t (1 : Fin 4) * 256 + 256; omega
  | ⟨2, _⟩ => show win0_2.index t (2 : Fin 4) * 16 ≤ (i 2).val ∧ (i 2).val < win0_2.index t (2 : Fin 4) * 16 + 16; omega
  | ⟨3, _⟩ => show win0_2.index t (3 : Fin 4) * 512 ≤ (i 3).val ∧ (i 3).val < win0_2.index t (3 : Fin 4) * 512 + 512; omega

/-- THE RESULT ARRAY after the run is the routed copy of the argument arrays. -/
theorem result_routed (c : Dev nD) :
    (dats m 0 c).arrAt 2 cfg0.N = routed (m ((c : Thread nD τ).loc main_arg0)) (m ((c : Thread nD τ).loc main_arg1)) :=
  (dats m 0 c).arrAt_eq_of_cover 2 (routed (V m c main_arg0) (V m c main_arg1)) (fun t _ => written_back m c t) tiles_cover

/-- The run, read: the result array ends as the routed copy of the arguments, which end unchanged. -/
theorem run : θ_run defs (onTc (τ := τ) (main (F := Ideal))) ⟨m, fun _ => 0, ρ⟩ fun r => ∀ c : Dev nD,
      r.2.mem ((c : Thread nD τ).loc main_v0) = routed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_routed m c), (h c).2⟩) (Value.run_blocks m ρ)

end Cert.KernelIdeal.ArrayValue

end
-- ==== Proof.RefValue.lean ====
/-
  The reference program's result, entry by entry, is the routed copy of the features.

  The reference builds a one-hot array over (token, label slot, partition): the bit "label = partition", read as
  a number.  It takes the maximum over the two label slots, starting from −∞, which leaves for each
  (token, partition) the weight 1 or 0; and it multiplies the features, repeated over the partitions, by that
  weight, repeated over the features.  The maximum over the slot axis is a fold over the two entries standing
  above a reduced index; written out it is the second road to the weight.
-/
import proofs.«146527_j87909390614955_1_alg».proof.Proof.Gen.ReferenceIdeal.Read
import proofs.«146527_j87909390614955_1_alg».proof.Proof.Mask
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Cert.ScatterMask
open Idealize.ShloMosaic Idealize.ShloMosaic.TcCoe Idealize.ShloMosaic.ValueIdx

/-- Dropping the slot axis of the one-hot array leaves the (token, partition) array. -/
theorem slots_reduce : S4x2048x2x16.Reduces [2] S4x2048x16 := by decide

/-- The one-hot entry standing above (b, s, p) in slot k is (b, s, k, p). -/
abbrev above (j : S4x2048x16.Idx) (k : Fin 2) : S4x2048x2x16.Idx := fun a => match a with
  | ⟨0, _⟩ => ⟨(j 0).val, (j 0).isLt⟩
  | ⟨1, _⟩ => ⟨(j 1).val, (j 1).isLt⟩
  | ⟨2, _⟩ => ⟨k.val, k.isLt⟩
  | ⟨3, _⟩ => ⟨(j 2).val, (j 2).isLt⟩

theorem lift_above (j : S4x2048x16.Idx) (k : Fin (S4x2048x2x16.size 2)) :
    slots_reduce.lift j k = above j k := by
  funext c; apply Fin.ext
  fin_cases c <;> rfl

/-- A one-hot entry (b, s, k, p): the bit "label k of token (b, s) is the word p", as a number. -/
theorem onehot_apply (idx : IVec S4x2048x2 32) (i : S4x2048x2x16.Idx) :
    val_main_v0 (F := Ideal) idx i
      = FloatOps.uitofp (F := Ideal) .f32 (IntOp.cmpi .eq (idx (idx_main_call0_v0 (idx_main_call0_v2 i))) (BitVec.ofNat 32 (i 3).val)) := by
  rw [val_main_v0_apply, val_main_call0_v4_apply, val_main_call0_v2_apply, val_main_call0_v0_apply,
    val_main_call0_v3_apply, val_main_call0_v1_apply]

/-- The maximum over the two slots from −∞, at (b, s, p), is the weight of partition p for token (b, s). -/
theorem slot_max_apply (idx : IVec S4x2048x2 32) (j : S4x2048x16.Idx) :
    val_main_v1 (F := Ideal) idx j
      = weight (idx (idx_main_call0_v0 (idx_main_call0_v2 (above j 0)))) (idx (idx_main_call0_v0 (idx_main_call0_v2 (above j 1)))) (j 2).val := by
  unfold val_main_v1
  rw [Host.reduce_eq_fold_single FloatOps.maximumf _ _ reducesTo_S4x2048x2x16_S4x2048x16_d2 slots_reduce h_S_ j]
  have hf : (val_main_v0 (F := Ideal) idx ∘ slots_reduce.lift j) = fun k : Fin 2 => val_main_v0 (F := Ideal) idx (above j k) :=
    funext fun k => congrArg (val_main_v0 (F := Ideal) idx) (lift_above j k)
  refine (congrArg (fun f => Finset.fold FloatOps.maximumf _ f (Finset.univ : Finset (Fin 2))) hf).trans ?_
  rw [fold_two, onehot_apply, onehot_apply]
  exact weight_by_max _ _ _

/-- THE REFERENCE'S RESULT is the routed copy: x[b, s, d] times the weight of p for (b, s). -/
theorem result_routed (x : FVec Ideal S4x2048x512 .f32) (idx : IVec S4x2048x2 32) :
    val_main_v6 (F := Ideal) x idx = routed x idx := by
  funext i
  rw [val_main_v6_apply, val_main_v4_apply, val_main_v2_apply, val_main_v5_apply, val_main_v3_apply, slot_max_apply]
  unfold routed
  have ef : idx_main_v2 (idx_main_v4 i) = feat i :=
    funext fun a => Fin.ext (by match a with | ⟨0, _⟩ => rfl | ⟨1, _⟩ => rfl | ⟨2, _⟩ => rfl)
  have e0 : idx_main_call0_v0 (idx_main_call0_v2 (above (idx_main_v3 (idx_main_v5 i)) 0)) = label i 0 :=
    funext fun a => Fin.ext (by match a with | ⟨0, _⟩ => rfl | ⟨1, _⟩ => rfl | ⟨2, _⟩ => rfl)
  have e1 : idx_main_call0_v0 (idx_main_call0_v2 (above (idx_main_v3 (idx_main_v5 i)) 1)) = label i 1 :=
    funext fun a => Fin.ext (by match a with | ⟨0, _⟩ => rfl | ⟨1, _⟩ => rfl | ⟨2, _⟩ => rfl)
  rw [ef, e0, e1]
  rfl

end Cert.ReferenceIdeal.RefValue

end
-- ==== Proof.lean ====
/-
  A kernel that routes token features to partitions, against its jnp reference, over the extended reals.

  Inputs: features x[b, s, d] (4 × 2048 × 512) and two partition labels per token, idx[b, s, 0] and idx[b, s, 1]
  (32-bit words).  Both programs compute

      out[b, s, p, d] = x[b, s, d] · w(b, s, p),   w(b, s, p) = 1 if the word p is idx[b, s, 0] or idx[b, s, 1], else 0,

  for the 16 partitions p.  The kernel works tile by tile (one batch row, 256 tokens): it compares an iota along
  the partition axis with each label column, ORs the two bits, converts the bit to a number and multiplies the
  repeated features by the repeated weights.  The reference builds the one-hot array over (token, slot,
  partition), takes the maximum over the two slots starting from −∞ and multiplies likewise.  "OR of the bits,
  as a number" and "maximum of the bits as numbers, from −∞" are the same 0/1 weight, and the remaining factor
  x[b, s, d] is the same entry on both sides, so the two results agree entry by entry with no condition on x or
  on the labels: the product is the same product even at an infinite x, and a label outside 0..15 matches no
  partition on either side.  The precondition (finite features) is not used.

  Mask.lean states the result and the two roads to the weight; TileRead.lean, TileWeight.lean and KernelTile.lean
  read one stored tile entry by entry; KernelArray.lean places the 32 tiles in the result array; RefValue.lean
  reads the reference.  The idealized kernel is the kernel's own text read over the extended reals (no operation
  was rewritten), so the idealization claim is empty.
-/
import proofs.«146527_j87909390614955_1_alg».proof.Defs
import proofs.«146527_j87909390614955_1_alg».proof.Proof.Gen.Kernel
import proofs.«146527_j87909390614955_1_alg».proof.Proof.Gen.Kernel.Skeleton
import proofs.«146527_j87909390614955_1_alg».proof.Proof.Gen.Kernel.Launch
import proofs.«146527_j87909390614955_1_alg».proof.Proof.Gen.Kernel.Points
import proofs.«146527_j87909390614955_1_alg».proof.Proof.Gen.Kernel.Frame
import proofs.«146527_j87909390614955_1_alg».proof.Proof.Gen.KernelIdeal
import proofs.«146527_j87909390614955_1_alg».proof.Proof.Gen.KernelIdeal.Skeleton
import proofs.«146527_j87909390614955_1_alg».proof.Proof.Gen.KernelIdeal.Launch
import proofs.«146527_j87909390614955_1_alg».proof.Proof.Gen.KernelIdeal.Points
import proofs.«146527_j87909390614955_1_alg».proof.Proof.Gen.KernelIdeal.Frame
import proofs.«146527_j87909390614955_1_alg».proof.Proof.Gen.ReferenceIdeal
import proofs.«146527_j87909390614955_1_alg».proof.Proof.Gen.Pre_finite_inputs
import proofs.«146527_j87909390614955_1_alg».proof.Proof.Gen.KernelIdeal.Value
import proofs.«146527_j87909390614955_1_alg».proof.Proof.Gen.ReferenceIdeal.Run
import proofs.«146527_j87909390614955_1_alg».proof.Proof.Gen.ReferenceIdeal.Read
import proofs.«146527_j87909390614955_1_alg».proof.Proof.KernelArray
import proofs.«146527_j87909390614955_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the routed copy of the (shared) arguments in their result array. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v6_eq _ _).trans (Cert.ReferenceIdeal.RefValue.result_routed _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
